-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x128 : Shape := ⟨2, ![2048, 128]⟩
abbrev S2048x2048 : Shape := ⟨2, ![2048, 2048]⟩
abbrev S1x2048 : Shape := ⟨2, ![1, 2048]⟩
abbrev S64x2048 : Shape := ⟨2, ![64, 2048]⟩
abbrev S128x2048 : Shape := ⟨2, ![128, 2048]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S128x2048 : S_.BroadcastsInDim S128x2048 (![] : Fin 0 → Fin S128x2048.rank)
  reducesTo_S128x2048_S_d0_1 : S128x2048.ReducesTo [0, 1] S_

variable [Facts]

def fn_part2 {F : FTy → Type} [FloatOps F] (main_arg7 : FVec F S64x2048 .f32) (main_arg8 : FVec F S128x2048 .f32) (main_arg9 : FVec F S2048x2048 .f32) (main_v33 : IVec S_ 1) : IVec S_ 1 :=
  let main_v34 : FVec F S64x2048 .f32 := Host.absf main_arg7
  let main_cst_12 : FVec F S_ .f32 := constant S_ .f32 0x7F800000#32
  let main_v35 : FVec F S64x2048 .f32 := broadcastInDim S64x2048 ![] bcast_S_S64x2048 main_cst_12
  let main_v36 : IVec S64x2048 1 := cmpf .olt main_v34 main_v35
  let main_c_13 : IVec S_ 1 := constantI S_ 1 1#1
  let main_v37 : IVec S_ 1 := (fun x v => Host.reduce IntOp.andi x v reducesTo_S64x2048_S_d0_1 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  main_v48

def fn_part1 {F : FTy → Type} [FloatOps F] (main_arg4 : FVec F S2048x2048 .f32) (main_arg5 : FVec F S1x2048 .f32) (main_arg6 : FVec F S2048x64 .f32) (main_arg7 : FVec F S64x2048 .f32) (main_arg8 : FVec F S128x2048 .f32) (main_arg9 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S2048x64 .f32 := Host.absf main_arg6
  let main_cst_10 : FVec F S_ .f32 := constant S_ .f32 0x7F800000#32
  let main_v30 : FVec F S2048x64 .f32 := broadcastInDim S2048x64 ![] bcast_S_S2048x64 main_cst_10
  let main_v31 : IVec S2048x64 1 := cmpf .olt main_v29 main_v30
  let main_c_11 : IVec S_ 1 := constantI S_ 1 1#1
  let main_v32 : IVec S_ 1 := (fun x v => Host.reduce IntOp.andi x v reducesTo_S2048x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x64 .f32) (main_arg1 : FVec F S2048x128 .f32) (main_arg2 : FVec F S2048x2048 .f32) (main_arg3 : FVec F S2048x2048 .f32) (main_arg4 : FVec F S2048x2048 .f32) (main_arg5 : FVec F S1x2048 .f32) (main_arg6 : FVec F S2048x64 .f32) (main_arg7 : FVec F S64x2048 .f32) (main_arg8 : FVec F S128x2048 .f32) (main_arg9 : FVec F S2048x2048 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S2048x64 : Shape := ⟨2, ![2048, 64]⟩
abbrev S2048x128 : Shape := ⟨2, ![2048, 128]⟩
abbrev S2048x2048 : Shape := ⟨2, ![2048, 2048]⟩
abbrev S1x2048 : Shape := ⟨2, ![1, 2048]⟩
abbrev S64x2048 : Shape := ⟨2, ![64, 2048]⟩
abbrev S128x2048 : Shape := ⟨2, ![128, 2048]⟩
abbrev S512x2048 : Shape := ⟨2, ![512, 2048]⟩
abbrev S2048x512 : Shape := ⟨2, ![2048, 512]⟩
abbrev S64x512 : Shape := ⟨2, ![64, 512]⟩
abbrev S512x64 : Shape := ⟨2, ![512, 64]⟩
abbrev S512x128 : Shape := ⟨2, ![512, 128]⟩
abbrev S128x512 : Shape := ⟨2, ![128, 512]⟩
abbrev S1x512 : Shape := ⟨2, ![1, 512]⟩
abbrev S512x512 : Shape := ⟨2, ![512, 512]⟩

abbrev nBuf : Space → Nat
  | .hbm => 20
  | .vmem => 23
  | .smem => 0
  | _ => 0

abbrev bufTy : (tb : Table) → Fin (tcTables nBuf tb) → BufTy
  | .hbm, ⟨0, _⟩ => ⟨S2048x64, .f32⟩
  | .hbm, ⟨1, _⟩ => ⟨S2048x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x64, .f32⟩
  | .hbm, ⟨7, _⟩ => ⟨S64x2048, .f32⟩
  | .hbm, ⟨8, _⟩ => ⟨S128x2048, .f32⟩
  | .hbm, ⟨9, _⟩ => ⟨S2048x2048, .f32⟩
  | .hbm, ⟨10, _⟩ => ⟨S2048x2048, .bf16⟩
  | .hbm, ⟨11, _⟩ => ⟨S2048x2048, .bf16⟩
  | .hbm, ⟨12, _⟩ => ⟨S2048x64, .f32⟩
  | .hbm, ⟨13, _⟩ => ⟨S2048x64, .bf16⟩
  | .hbm, ⟨14, _⟩ => ⟨S64x2048, .f32⟩
  | .hbm, ⟨15, _⟩ => ⟨S64x2048, .bf16⟩
  | .hbm, ⟨16, _⟩ => ⟨S2048x128, .bf16⟩
  | .hbm, ⟨17, _⟩ => ⟨S128x2048, .bf16⟩
  | .hbm, ⟨18, _⟩ => ⟨S2048x2048, .f32⟩
  | .hbm, ⟨19, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x64, .bf16⟩
  | .local _ .vmem, ⟨5, _⟩ => ⟨S64x512, .bf16⟩
  | .local _ .vmem, ⟨6, _⟩ => ⟨S64x512, .bf16⟩
  | .local _ .vmem, ⟨7, _⟩ => ⟨S512x64, .f32⟩
  | .local _ .vmem, ⟨8, _⟩ => ⟨S512x64, .f32⟩
  | .local _ .vmem, ⟨9, _⟩ => ⟨S512x128, .bf16⟩
  | .local _ .vmem, ⟨10, _⟩ => ⟨S512x128, .bf16⟩
  | .local _ .vmem, ⟨11, _⟩ => ⟨S128x512, .bf16⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bitsLt_bf16_f32 : FTy.bits .bf16 < FTy.bits .f32
  transposes_S64x2048_S2048x64_1_0 : S64x2048.Transposes [1, 0] S2048x64
  transposes_S2048x64_S64x2048_1_0 : S2048x64.Transposes [1, 0] S64x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  dot_S512x2048_S2048x512_S512x512_1_0_0_1_n_n_wf : DotDims.WF S512x2048 S2048x512 S512x512 [1] [0] [0] [1] [] []
  dot_S512x2048_S2048x64_S512x64_1_0_0_1_n_n_wf : DotDims.WF S512x2048 S2048x64 S512x64 [1] [0] [0] [1] [] []
  dot_S512x64_S64x512_S512x512_1_0_0_1_n_n_wf : DotDims.WF S512x64 S64x512 S512x512 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .bf16 = 32 ∨ (Rect.block (s := S2048x2048) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .bf16 = 32 ∨ (Rect.block (s := S2048x64) S2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x2048.size a
  hwx0_3 : ∀ i : grid0.Coords, EltTy.bits .bf16 = 32 ∨ (Rect.block (s := S64x2048) S64x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S2048x64.size a
  hwx0_4 : ∀ i : grid0.Coords, EltTy.bits .f32 = 32 ∨ (Rect.block (s := S2048x64) S512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S2048x128.size a
  hwx0_5 : ∀ i : grid0.Coords, EltTy.bits .bf16 = 32 ∨ (Rect.block (s := S2048x128) S512x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x2048.size a
  hwx0_6 : ∀ i : grid0.Coords, EltTy.bits .bf16 = 32 ∨ (Rect.block (s := S128x2048) S128x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S2048x2048.size a
  hwx0_8 : ∀ i : grid0.Coords, EltTy.bits .f32 = 32 ∨ (Rect.block (s := S2048x2048) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S2048x2048.size a
  hwx0_9 : ∀ i : grid0.Coords, EltTy.bits .f32 = 32 ∨ (Rect.block (s := S2048x2048) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S2048x2048.size a
  hwx0_10 : ∀ i : grid0.Coords, EltTy.bits .f32 = 32 ∨ (Rect.block (s := S2048x2048) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S2048x2048.size a
  hwx0_11 : ∀ i : grid0.Coords, EltTy.bits .f32 = 32 ∨ (Rect.block (s := S2048x2048) S512x512.size (cc0_transform_11 i) (hinb0_11 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S512x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S512x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x128 : Shape := ⟨2, ![2048, 128]⟩
abbrev S2048x2048 : Shape := ⟨2, ![2048, 2048]⟩
abbrev S1x2048 : Shape := ⟨2, ![1, 2048]⟩
abbrev S64x2048 : Shape := ⟨2, ![64, 2048]⟩
abbrev S128x2048 : Shape := ⟨2, ![128, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x128, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x64, .f32⟩
  | .hbm, ⟨7, _⟩ => ⟨S64x2048, .f32⟩
  | .hbm, ⟨8, _⟩ => ⟨S128x2048, .f32⟩
  | .hbm, ⟨9, _⟩ => ⟨S2048x2048, .f32⟩
  | .hbm, ⟨10, _⟩ => ⟨S2048x2048, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S64x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .i1⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v19 : Ref sig .tc := ⟨.hbm, 44, rfl⟩

abbrev nD : Nat := 1
abbrev τ : Topo := Topo.v7x

variable {F : FTy → Type} [FloatOps F]

class Facts₀ : Prop where
  transposes_S64x2048_S2048x64_1_0 : S64x2048.Transposes [1, 0] S2048x64
  transposes_S2048x64_S64x2048_1_0 : S2048x64.Transposes [1, 0] S64x2048
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  dot_S2048x128_S128x2048_S2048x2048_1_0_0_1_n_n_wf : DotDims.WF S2048x128 S128x2048 S2048x2048 [1] [0] [0] [1] [] []
  dot_S2048x2048_S2048x64_S2048x64_1_0_0_1_n_n_wf : DotDims.WF S2048x2048 S2048x64 S2048x64 [1] [0] [0] [1] [] []
  dot_S2048x64_S64x2048_S2048x2048_1_0_0_1_n_n_wf : DotDims.WF S2048x64 S64x2048 S2048x2048 [1] [0] [0] [1] [] []
  dot_S2048x2048_S2048x2048_S2048x2048_1_0_0_1_n_n_wf : DotDims.WF S2048x2048 S2048x2048 S2048x2048 [1] [0] [0] [1] [] []

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Spec.lean ====
/-
  One step of a rate network with a low-rank gated recurrent term, as plain mathematics over the extended reals.

  With state `x`, rates `r`, recurrent weights `J`, a gate `g` on a rank-64 loop `U · diag(g) · V`,
  a stimulus `s` through input weights `W`, a bias row `B` and noise `e`, entry `(i, j)` of the drive is

      −x(i,j) + ∑ₖ r(i,k)·J(k,j) + ∑ₐ (g(i,a) · ∑ₖ r(i,k)·V(a,k)) · U(j,a) + B(0,j) + ∑_b s(i,b)·W(b,j) + σ·e(i,j),

  added in that order; the new state is `x + h · drive` and the new rate is `softplus` of it, where
  `softplus z = max z 0 + log(1 + exp(−|z|))`. `σ` and `h` are the values two f32 words denote; they are
  never evaluated, since both programs carry the same words.
-/
import Idealize.ShloMosaic.PureOps.Ideal.Laws
import Idealize.ShloMosaic.Lib.ValueIdx

noncomputable section

namespace Cert.RateStep

open Idealize.ShloMosaic Idealize.ShloMosaic.ValueIdx

/-- An `a × b` array of extended reals. -/
abbrev Mat (a b : Nat) : Type := (⟨2, ![a, b]⟩ : Shape).Idx → EReal

/-- The noise scale, the value of the f32 word `0x3F5105EC`. -/
def sigma : EReal := Ideal.ofBits .f32 0x3F5105EC#32
/-- The integration step, the value of the f32 word `0x3EAAAAAB`. -/
def stepSize : EReal := Ideal.ofBits .f32 0x3EAAAAAB#32

/-- The full recurrent term `(r · J)(i, j)`. -/
def recur (r J : Mat 2048 2048) (i j : Fin 2048) : EReal := ∑ k : Fin 2048, r (ix2 i k) * J (ix2 k j)

/-- The rates projected on the loop's input directions: `(r · Vᵀ)(i, a)`. -/
def proj (r : Mat 2048 2048) (V : Mat 64 2048) (i : Fin 2048) (a : Fin 64) : EReal :=
  ∑ k : Fin 2048, r (ix2 i k) * V (ix2 a k)

/-- The gated low-rank term `((g ∘ (r · Vᵀ)) · Uᵀ)(i, j)`. -/
def lowRank (g : Mat 2048 64) (r : Mat 2048 2048) (U : Mat 2048 64) (V : Mat 64 2048) (i j : Fin 2048) : EReal :=
  ∑ a : Fin 64, (g (ix2 i a) * proj r V i a) * U (ix2 j a)

/-- The external input `(s · W)(i, j)`. -/
def stimIn (s : Mat 2048 128) (W : Mat 128 2048) (i j : Fin 2048) : EReal := ∑ b : Fin 128, s (ix2 i b) * W (ix2 b j)

/-- The drive at `(i, j)`, its six terms added from the left. -/
def drive (g : Mat 2048 64) (s : Mat 2048 128) (x r J : Mat 2048 2048) (B : Mat 1 2048) (U : Mat 2048 64)
    (V : Mat 64 2048) (W : Mat 128 2048) (e : Mat 2048 2048) (i j : Fin 2048) : EReal :=
  -x (ix2 i j) + recur r J i j + lowRank g r U V i j + B (ix2 0 j) + stimIn s W i j + sigma * e (ix2 i j)

/-- The new state at `(i, j)`. -/
def stateAt (g : Mat 2048 64) (s : Mat 2048 128) (x r J : Mat 2048 2048) (B : Mat 1 2048) (U : Mat 2048 64)
    (V : Mat 64 2048) (W : Mat 128 2048) (e : Mat 2048 2048) (i j : Fin 2048) : EReal :=
  x (ix2 i j) + stepSize * drive g s x r J B U V W e i j

/-- `softplus z = max z 0 + log (1 + exp (−|z|))`, with `|z| = max z (−z)`. -/
def softplus (z : EReal) : EReal := max z 0 + Ideal.log1p (Ideal.exp (-(max z (-z))))

/-- The new state, as an array. -/
def newState (g : Mat 2048 64) (s : Mat 2048 128) (x r J : Mat 2048 2048) (B : Mat 1 2048) (U : Mat 2048 64)
    (V : Mat 64 2048) (W : Mat 128 2048) (e : Mat 2048 2048) : Mat 2048 2048 :=
  fun ij => stateAt g s x r J B U V W e (ij 0) (ij 1)

/-- The new rate, as an array. -/
def newRate (g : Mat 2048 64) (s : Mat 2048 128) (x r J : Mat 2048 2048) (B : Mat 1 2048) (U : Mat 2048 64)
    (V : Mat 64 2048) (W : Mat 128 2048) (e : Mat 2048 2048) : Mat 2048 2048 :=
  fun ij => softplus (stateAt g s x r J B U V W e (ij 0) (ij 1))

/-! ## The two spellings of softplus

Both programs compute `softplus z` as `logaddexp z 0`: the larger of the two plus `log1p (exp (−|z − 0|))`, under a
guard `z − 0 ≠ z − 0` that picks `z + 0` instead. No extended real differs from itself, so the guard never fires.
One program negates `|z − 0|`, the other subtracts it from zero. -/

/-- No extended real differs from itself: the guard's bit is clear. -/
theorem cmp_ne_self (z : EReal) : Ideal.cmp .one z z = 0#1 ∧ Ideal.cmp .une z z = 0#1 := by
  constructor <;> simp [Ideal.cmp]

/-- The spelling that subtracts `|z − 0|` from zero. -/
theorem softplus_of_zero_sub (z : EReal) :
    Scalar.select (Ideal.cmp .one (z - 0) (z - 0)) (z + 0) (max z 0 + Ideal.log1p (Ideal.exp (0 - max (z - 0) (-(z - 0)))))
      = softplus z := by
  rw [(cmp_ne_self (z - 0)).1, select_zero, sub_zero, zero_sub]
  rfl

/-- The spelling that negates `|z − 0|`. -/
theorem softplus_of_neg (z : EReal) :
    Scalar.select (Ideal.cmp .une (z - 0) (z - 0)) (z + 0) (max z 0 + Ideal.log1p (Ideal.exp (-(max (z - 0) (-(z - 0))))))
      = softplus z := by
  rw [(cmp_ne_self (z - 0)).2, select_zero, sub_zero]
  rfl

end Cert.RateStep

end
-- ==== Proof.LibMatmul.lean ====
/-
  A row-by-column matrix product read at an index, over the extended reals.

  A `tpu.matmul` of an `[M, K]` operand by a `[K, N]` operand whose dimension numbers contract the left
  operand's second axis with the right operand's first (no batch axes), accumulated into the zero splat, is at
  entry `(p, q)` the plain sum `∑ k, a (p, k) · b (k, q)`. The host's `dot_general` with the same dimension
  numbers is the same sum. Both statements are for ANY extents and any record of dimension numbers: what a
  user supplies about the record is where its operand indices read the result index and the contraction
  index, axis by axis (four equations, each decided at a concrete record).
-/
import Idealize.ShloMosaic.PureOps.Ideal.Laws
import Idealize.ShloMosaic.Lib.ValueIdx

noncomputable section

namespace Cert.LibMatmul

open Idealize.ShloMosaic Idealize.ShloMosaic.ValueIdx

variable {M K N : Nat} {φ₁ φ₂ : FTy}

/-- The operand indices of a row-by-column product at result entry `(p, q)` and contraction position `k`
    are `(p, k)` on the left and `(k, q)` on the right. -/
theorem operand_indices (d : DotDims ⟨2, ![M, K]⟩ ⟨2, ![K, N]⟩ ⟨2, ![M, N]⟩)
    (hr : d.contr.rank = 1) (hs : d.contr.size ⟨0, by omega⟩ = K)
    (l0 : ∀ (i : (⟨2, ![M, N]⟩ : Shape).Idx) (c : d.contr.Idx), (d.lhsIdx i c 0).val = (i 0).val)
    (l1 : ∀ (i : (⟨2, ![M, N]⟩ : Shape).Idx) (c : d.contr.Idx), (d.lhsIdx i c 1).val = (c ⟨0, by omega⟩).val)
    (r0 : ∀ (i : (⟨2, ![M, N]⟩ : Shape).Idx) (c : d.contr.Idx), (d.rhsIdx i c 0).val = (c ⟨0, by omega⟩).val)
    (r1 : ∀ (i : (⟨2, ![M, N]⟩ : Shape).Idx) (c : d.contr.Idx), (d.rhsIdx i c 1).val = (i 1).val)
    (p : Fin M) (q : Fin N) (k : Fin K) :
    d.lhsIdx (ix2 p q) ((contrEquiv1 d K hr hs).symm k) = ix2 p k
      ∧ d.rhsIdx (ix2 p q) ((contrEquiv1 d K hr hs).symm k) = ix2 k q := by
  have hk := contrEquiv1_symm_val d K hr hs k
  constructor
  · funext a
    apply Fin.ext
    match a with
    | ⟨0, _⟩ => exact l0 _ _
    | ⟨1, _⟩ => exact (l1 _ _).trans hk
  · funext a
    apply Fin.ext
    match a with
    | ⟨0, _⟩ => exact (r0 _ _).trans hk
    | ⟨1, _⟩ => exact r1 _ _

/-- A `tpu.matmul` of rows by columns into the zero accumulator, at entry `(p, q)`: `∑ k, a (p, k) · b (k, q)`. -/
theorem matmul_zero_apply (d : DotDims ⟨2, ![M, K]⟩ ⟨2, ![K, N]⟩ ⟨2, ![M, N]⟩)
    (hr : d.contr.rank = 1) (hs : d.contr.size ⟨0, by omega⟩ = K)
    (l0 : ∀ (i : (⟨2, ![M, N]⟩ : Shape).Idx) (c : d.contr.Idx), (d.lhsIdx i c 0).val = (i 0).val)
    (l1 : ∀ (i : (⟨2, ![M, N]⟩ : Shape).Idx) (c : d.contr.Idx), (d.lhsIdx i c 1).val = (c ⟨0, by omega⟩).val)
    (r0 : ∀ (i : (⟨2, ![M, N]⟩ : Shape).Idx) (c : d.contr.Idx), (d.rhsIdx i c 0).val = (c ⟨0, by omega⟩).val)
    (r1 : ∀ (i : (⟨2, ![M, N]⟩ : Shape).Idx) (c : d.contr.Idx), (d.rhsIdx i c 1).val = (i 1).val)
    (prec : Option ContractPrecision)
    (a : FVec Ideal ⟨2, ![M, K]⟩ φ₁) (b : FVec Ideal ⟨2, ![K, N]⟩ φ₂) (p : Fin M) (q : Fin N) :
    FloatOps.matmul d prec a b (constant ⟨2, ![M, N]⟩ .f32 0x00000000#32) (ix2 p q)
      = ∑ k : Fin K, a (ix2 p k) * b (ix2 k q) := by
  rw [Ideal.matmul_constant_zero_apply, ← Equiv.sum_comp (contrEquiv1 d K hr hs).symm]
  refine Finset.sum_congr rfl fun k _ => ?_
  obtain ⟨el, er⟩ := operand_indices d hr hs l0 l1 r0 r1 p q k
  rw [el, er]

/-- The host's `dot_general` of rows by columns, at entry `(p, q)`: the same sum. -/
theorem dotGeneral_apply (d : DotDims ⟨2, ![M, K]⟩ ⟨2, ![K, N]⟩ ⟨2, ![M, N]⟩)
    (hr : d.contr.rank = 1) (hs : d.contr.size ⟨0, by omega⟩ = K)
    (l0 : ∀ (i : (⟨2, ![M, N]⟩ : Shape).Idx) (c : d.contr.Idx), (d.lhsIdx i c 0).val = (i 0).val)
    (l1 : ∀ (i : (⟨2, ![M, N]⟩ : Shape).Idx) (c : d.contr.Idx), (d.lhsIdx i c 1).val = (c ⟨0, by omega⟩).val)
    (r0 : ∀ (i : (⟨2, ![M, N]⟩ : Shape).Idx) (c : d.contr.Idx), (d.rhsIdx i c 0).val = (c ⟨0, by omega⟩).val)
    (r1 : ∀ (i : (⟨2, ![M, N]⟩ : Shape).Idx) (c : d.contr.Idx), (d.rhsIdx i c 1).val = (i 1).val)
    (prec : Option ContractPrecision) (sched : HostSchedule)
    (a : FVec Ideal ⟨2, ![M, K]⟩ φ₁) (b : FVec Ideal ⟨2, ![K, N]⟩ φ₂) (p : Fin M) (q : Fin N) :
    FloatOps.dotGeneral d prec sched a b (ix2 p q) = ∑ k : Fin K, a (ix2 p k) * b (ix2 k q) := by
  rw [Ideal.dotGeneral_apply, ← Equiv.sum_comp (contrEquiv1 d K hr hs).symm]
  refine Finset.sum_congr rfl fun k _ => ?_
  obtain ⟨el, er⟩ := operand_indices d hr hs l0 l1 r0 r1 p q k
  rw [el, er]

end Cert.LibMatmul

end
-- ==== Proof.Body.lean ====
/-
  The kernel's arithmetic at one entry of one block.

  A grid point works on a 512 × 512 block of the state. Its body forms the drive from four matrix products —
  rates by recurrent weights, rates by the loop's input directions, the gated projections by the loop's output
  directions, stimulus by input weights — each accumulated from zero, then the bias row broadcast down the
  block and the scaled noise; the state's block is `x + h · drive`, the rate's block `logaddexp` of that against
  zero. Here: each product read at an entry as a sum over its contracted axis, and then the three stored values
  read at entry `(p, q)` of the block, given where in the whole arrays the block's operands come from.
-/
import proofs.«128068_j18116172054562_1_alg».proof.Proof.Gen.KernelIdeal.Skeleton
import proofs.«128068_j18116172054562_1_alg».proof.Proof.Spec
import proofs.«128068_j18116172054562_1_alg».proof.Proof.LibMatmul
import Idealize.ShloMosaic.Lib.Pipeline.Value

noncomputable section

namespace Cert.KernelIdeal.Body

open Cert.KernelIdeal Cert.KernelIdeal.Gen
open Idealize.ShloMosaic Idealize.ShloMosaic.ValueIdx Cert.RateStep

/-! ### Rates by recurrent weights, [512, 2048] · [2048, 512]: where the operands are read -/

theorem recur_lhs_0 (i : S512x512.Idx) (c : dot_S512x2048_S2048x512_S512x512_1_0_0_1_n_n.contr.Idx) :
    (dot_S512x2048_S2048x512_S512x512_1_0_0_1_n_n.lhsIdx i c 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem recur_lhs_1 (i : S512x512.Idx) (c : dot_S512x2048_S2048x512_S512x512_1_0_0_1_n_n.contr.Idx) :
    (dot_S512x2048_S2048x512_S512x512_1_0_0_1_n_n.lhsIdx i c 1).val = (c ⟨0, by decide⟩).val :=
  dot_S512x2048_S2048x512_S512x512_1_0_0_1_n_n.lhsIdx_val_of_single rfl i c
theorem recur_rhs_0 (i : S512x512.Idx) (c : dot_S512x2048_S2048x512_S512x512_1_0_0_1_n_n.contr.Idx) :
    (dot_S512x2048_S2048x512_S512x512_1_0_0_1_n_n.rhsIdx i c 0).val = (c ⟨0, by decide⟩).val :=
  dot_S512x2048_S2048x512_S512x512_1_0_0_1_n_n.rhsIdx_val_of_single rfl i c
theorem recur_rhs_1 (i : S512x512.Idx) (c : dot_S512x2048_S2048x512_S512x512_1_0_0_1_n_n.contr.Idx) :
    (dot_S512x2048_S2048x512_S512x512_1_0_0_1_n_n.rhsIdx i c 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Entry `(p, q)` of the block of `r · J`. -/
theorem recur_apply (a : FVec Ideal S512x2048 .bf16) (b : FVec Ideal S2048x512 .bf16) (p q : Fin 512) :
    matmul dot_S512x2048_S2048x512_S512x512_1_0_0_1_n_n none a b (constant S512x512 .f32 0x00000000#32) (ix2 p q)
      = ∑ k : Fin 2048, a (ix2 p k) * b (ix2 k q) :=
  LibMatmul.matmul_zero_apply dot_S512x2048_S2048x512_S512x512_1_0_0_1_n_n rfl rfl recur_lhs_0 recur_lhs_1 recur_rhs_0 recur_rhs_1 none a b p q

/-! ### Rates by the loop's input directions, [512, 2048] · [2048, 64] -/

theorem proj_lhs_0 (i : S512x64.Idx) (c : dot_S512x2048_S2048x64_S512x64_1_0_0_1_n_n.contr.Idx) :
    (dot_S512x2048_S2048x64_S512x64_1_0_0_1_n_n.lhsIdx i c 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem proj_lhs_1 (i : S512x64.Idx) (c : dot_S512x2048_S2048x64_S512x64_1_0_0_1_n_n.contr.Idx) :
    (dot_S512x2048_S2048x64_S512x64_1_0_0_1_n_n.lhsIdx i c 1).val = (c ⟨0, by decide⟩).val :=
  dot_S512x2048_S2048x64_S512x64_1_0_0_1_n_n.lhsIdx_val_of_single rfl i c
theorem proj_rhs_0 (i : S512x64.Idx) (c : dot_S512x2048_S2048x64_S512x64_1_0_0_1_n_n.contr.Idx) :
    (dot_S512x2048_S2048x64_S512x64_1_0_0_1_n_n.rhsIdx i c 0).val = (c ⟨0, by decide⟩).val :=
  dot_S512x2048_S2048x64_S512x64_1_0_0_1_n_n.rhsIdx_val_of_single rfl i c
theorem proj_rhs_1 (i : S512x64.Idx) (c : dot_S512x2048_S2048x64_S512x64_1_0_0_1_n_n.contr.Idx) :
    (dot_S512x2048_S2048x64_S512x64_1_0_0_1_n_n.rhsIdx i c 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry `(p, a)` of the block of `r · Vᵀ`. -/
theorem proj_apply (a : FVec Ideal S512x2048 .bf16) (b : FVec Ideal S2048x64 .bf16) (p : Fin 512) (q : Fin 64) :
    matmul dot_S512x2048_S2048x64_S512x64_1_0_0_1_n_n none a b (constant S512x64 .f32 0x00000000#32) (ix2 p q)
      = ∑ k : Fin 2048, a (ix2 p k) * b (ix2 k q) :=
  LibMatmul.matmul_zero_apply dot_S512x2048_S2048x64_S512x64_1_0_0_1_n_n rfl rfl proj_lhs_0 proj_lhs_1 proj_rhs_0 proj_rhs_1 none a b p q

/-! ### The gated projections by the loop's output directions, [512, 64] · [64, 512] -/

theorem loop_lhs_0 (i : S512x512.Idx) (c : dot_S512x64_S64x512_S512x512_1_0_0_1_n_n.contr.Idx) :
    (dot_S512x64_S64x512_S512x512_1_0_0_1_n_n.lhsIdx i c 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem loop_lhs_1 (i : S512x512.Idx) (c : dot_S512x64_S64x512_S512x512_1_0_0_1_n_n.contr.Idx) :
    (dot_S512x64_S64x512_S512x512_1_0_0_1_n_n.lhsIdx i c 1).val = (c ⟨0, by decide⟩).val :=
  dot_S512x64_S64x512_S512x512_1_0_0_1_n_n.lhsIdx_val_of_single rfl i c
theorem loop_rhs_0 (i : S512x512.Idx) (c : dot_S512x64_S64x512_S512x512_1_0_0_1_n_n.contr.Idx) :
    (dot_S512x64_S64x512_S512x512_1_0_0_1_n_n.rhsIdx i c 0).val = (c ⟨0, by decide⟩).val :=
  dot_S512x64_S64x512_S512x512_1_0_0_1_n_n.rhsIdx_val_of_single rfl i c
theorem loop_rhs_1 (i : S512x512.Idx) (c : dot_S512x64_S64x512_S512x512_1_0_0_1_n_n.contr.Idx) :
    (dot_S512x64_S64x512_S512x512_1_0_0_1_n_n.rhsIdx i c 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- Entry `(p, q)` of the block of the low-rank term. -/
theorem loop_apply (a : FVec Ideal S512x64 .bf16) (b : FVec Ideal S64x512 .bf16) (p q : Fin 512) :
    matmul dot_S512x64_S64x512_S512x512_1_0_0_1_n_n none a b (constant S512x512 .f32 0x00000000#32) (ix2 p q)
      = ∑ k : Fin 64, a (ix2 p k) * b (ix2 k q) :=
  LibMatmul.matmul_zero_apply dot_S512x64_S64x512_S512x512_1_0_0_1_n_n rfl rfl loop_lhs_0 loop_lhs_1 loop_rhs_0 loop_rhs_1 none a b p q

/-! ### Stimulus by input weights, [512, 128] · [128, 512] -/

theorem stim_lhs_0 (i : S512x512.Idx) (c : dot_S512x128_S128x512_S512x512_1_0_0_1_n_n.contr.Idx) :
    (dot_S512x128_S128x512_S512x512_1_0_0_1_n_n.lhsIdx i c 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem stim_lhs_1 (i : S512x512.Idx) (c : dot_S512x128_S128x512_S512x512_1_0_0_1_n_n.contr.Idx) :
    (dot_S512x128_S128x512_S512x512_1_0_0_1_n_n.lhsIdx i c 1).val = (c ⟨0, by decide⟩).val :=
  dot_S512x128_S128x512_S512x512_1_0_0_1_n_n.lhsIdx_val_of_single rfl i c
theorem stim_rhs_0 (i : S512x512.Idx) (c : dot_S512x128_S128x512_S512x512_1_0_0_1_n_n.contr.Idx) :
    (dot_S512x128_S128x512_S512x512_1_0_0_1_n_n.rhsIdx i c 0).val = (c ⟨0, by decide⟩).val :=
  dot_S512x128_S128x512_S512x512_1_0_0_1_n_n.rhsIdx_val_of_single rfl i c
theorem stim_rhs_1 (i : S512x512.Idx) (c : dot_S512x128_S128x512_S512x512_1_0_0_1_n_n.contr.Idx) :
    (dot_S512x128_S128x512_S512x512_1_0_0_1_n_n.rhsIdx i c 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- Entry `(p, q)` of the block of `s · W`. -/
theorem stim_apply (a : FVec Ideal S512x128 .bf16) (b : FVec Ideal S128x512 .bf16) (p q : Fin 512) :
    matmul dot_S512x128_S128x512_S512x512_1_0_0_1_n_n none a b (constant S512x512 .f32 0x00000000#32) (ix2 p q)
      = ∑ k : Fin 128, a (ix2 p k) * b (ix2 k q) :=
  LibMatmul.matmul_zero_apply dot_S512x128_S128x512_S512x512_1_0_0_1_n_n rfl rfl stim_lhs_0 stim_lhs_1 stim_rhs_0 stim_rhs_1 none a b p q

/-! ## The bias row, broadcast down the block -/

theorem bias_apply (v : Vec Ideal S1x512 .f32) (p q : Fin 512) :
    broadcastTo S512x512 v broadcasts_S1x512_S512x512 (ix2 p q) = v (ix2 (0 : Fin 1) q) :=
  broadcastTo_apply v broadcasts_S1x512_S512x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## The drive at an entry of the block

`rowOf p` and `colOf q` are the row and the column of the whole arrays at which the block's row `p` and column `q`
sit. The hypotheses say which entries of the whole arrays the body's loaded blocks hold: a row block of the rates,
of the gate and of the stimulus; a column block of the recurrent weights, of the loop's output directions (transposed),
of the input weights and of the bias; the loop's input directions whole (transposed); the state's and the noise's
own block. -/

theorem drive_at (rowOf colOf : Fin 512 → Fin 2048)
    (g : Mat 2048 64) (s : Mat 2048 128) (x r J : Mat 2048 2048) (B : Mat 1 2048) (U : Mat 2048 64)
    (V : Mat 64 2048) (W : Mat 128 2048) (e : Mat 2048 2048)
    (v0 : Vec Ideal S512x2048 .bf16) (v2 : Vec Ideal S2048x512 .bf16) (v5 : Vec Ideal S2048x64 .bf16)
    (v8 : Vec Ideal S512x64 .f32) (v11 : Vec Ideal S64x512 .bf16) (v14 : Vec Ideal S512x128 .bf16)
    (v16 : Vec Ideal S128x512 .bf16) (v19 : Vec Ideal S512x512 .f32) (v24 : Vec Ideal S1x512 .f32)
    (v28 : Vec Ideal S512x512 .f32)
    (h0 : ∀ (p : Fin 512) (k : Fin 2048), v0 (ix2 p k) = r (ix2 (rowOf p) k))
    (h2 : ∀ (k : Fin 2048) (q : Fin 512), v2 (ix2 k q) = J (ix2 k (colOf q)))
    (h5 : ∀ (k : Fin 2048) (a : Fin 64), v5 (ix2 k a) = V (ix2 a k))
    (h8 : ∀ (p : Fin 512) (a : Fin 64), v8 (ix2 p a) = g (ix2 (rowOf p) a))
    (h11 : ∀ (a : Fin 64) (q : Fin 512), v11 (ix2 a q) = U (ix2 (colOf q) a))
    (h14 : ∀ (p : Fin 512) (b : Fin 128), v14 (ix2 p b) = s (ix2 (rowOf p) b))
    (h16 : ∀ (b : Fin 128) (q : Fin 512), v16 (ix2 b q) = W (ix2 b (colOf q)))
    (h19 : ∀ (p q : Fin 512), v19 (ix2 p q) = x (ix2 (rowOf p) (colOf q)))
    (h24 : ∀ (q : Fin 512), v24 (ix2 (0 : Fin 1) q) = B (ix2 (0 : Fin 1) (colOf q)))
    (h28 : ∀ (p q : Fin 512), v28 (ix2 p q) = e (ix2 (rowOf p) (colOf q)))
    (p q : Fin 512) :
    k0_pay3 v0 v2 v5 v8 v11 v14 v16 v19 v24 v28 (ix2 p q) = drive g s x r J B U V W e (rowOf p) (colOf q) := by
  unfold k0_pay3
  simp only [addf_apply, subf_apply, mulf_apply, truncf_apply, broadcast_apply, shapeCast_self, recur_apply, proj_apply,
    loop_apply, stim_apply, Ideal.ofBits_def, Ideal.ofBits_zero_f32, zero_sub,
    h0, h2, h5, h8, h11, h14, h16, h19, h28]
  rw [bias_apply, h24]
  rfl

/-! ## The two stored values at an entry -/

/-- The state's block: `x + h · drive`. -/
theorem state_at (v31 : FVec Ideal S512x512 .f32) (v32 : Vec Ideal S512x512 .f32) (y : S512x512.Idx) :
    k0_pay1 v31 v32 y = v32 y + stepSize * v31 y := rfl

/-- The rate's block: `softplus` of the state's. -/
theorem rate_at (v31 : FVec Ideal S512x512 .f32) (v32 : Vec Ideal S512x512 .f32) (y : S512x512.Idx) :
    k0_pay2 v31 v32 y = softplus (k0_pay1 v31 v32 y) := by
  refine Eq.trans ?_ (softplus_of_zero_sub (k0_pay1 v31 v32 y))
  unfold k0_pay2
  simp only [select_apply, cmpf_apply, addf_apply, subf_apply, maximumf_apply, broadcast_apply, absf, exp, log1p,
    Ideal.cmpf_def, Ideal.absf_def, Ideal.exp_def, Ideal.log1p_def, Ideal.addf_def, Ideal.subf_def, Ideal.maximumf_def,
    Ideal.ofBits_def, Ideal.ofBits_zero_f32]

end Cert.KernelIdeal.Body

end
-- ==== Proof.Blocks.lean ====
/-
  From blocks to arrays: what the kernel's run leaves in its two result arrays.

  The grid is 4 × 4; point `t` owns the 512 × 512 block of both results whose block row and block column are the
  point's two coordinates. The operands it stages move with it: a row block of the rates, of the gate and of the
  stimulus (same block row, all columns); a column block of the recurrent weights, of the loop's output directions,
  of the input weights and of the bias (same block column, all rows); the loop's input directions whole; the
  state's and the noise's own block. The staged copies of the rates, the weights, the loop's directions, the stimulus
  and the input weights are host-side changes of float format (the identity on extended reals) and two transposes
  of the arguments. So every entry of block `t` of the first result is the new state at that entry, every entry of
  block `t` of the second its softplus; the sixteen blocks tile the arrays.
-/
import proofs.«128068_j18116172054562_1_alg».proof.Proof.Gen.KernelIdeal.Value
import proofs.«128068_j18116172054562_1_alg».proof.Proof.Body
import Idealize.ShloMosaic.Lib.StableHlo.Run

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx Cert.RateStep
open Idealize.ShloMosaic.Pipeline (Dat)

variable (m : (ℓ : Loc nD τ sig) → Buf (Elt Ideal) ℓ) (ρ : Dev nD → PrngReg)

/-! ## The staged operands, as the region finds them -/

/-- The staged rates are the rates. -/
theorem staged_rates (c : Dev nD) : (V m c main_v0 : S2048x2048.Idx → EReal) = m ((c : Thread nD τ).loc main_arg3) := by
  dsimp only [V, hostOps0]; after_results; rfl
/-- The staged recurrent weights are the recurrent weights. -/
theorem staged_weights (c : Dev nD) : (V m c main_v1 : S2048x2048.Idx → EReal) = m ((c : Thread nD τ).loc main_arg4) := by
  dsimp only [V, hostOps0]; after_results; rfl
/-- The staged input directions of the loop are `Vᵀ`. -/
theorem staged_vt (c : Dev nD) : (V m c main_v3 : S2048x64.Idx → EReal)
    = transpose S2048x64 [1, 0] (m ((c : Thread nD τ).loc main_arg7)) transposes_S64x2048_S2048x64_1_0 := by
  dsimp only [V, hostOps0]; after_results; rfl
/-- The staged output directions of the loop are `Uᵀ`. -/
theorem staged_ut (c : Dev nD) : (V m c main_v5 : S64x2048.Idx → EReal)
    = transpose S64x2048 [1, 0] (m ((c : Thread nD τ).loc main_arg6)) transposes_S2048x64_S64x2048_1_0 := by
  dsimp only [V, hostOps0]; after_results; rfl
/-- The staged stimulus is the stimulus. -/
theorem staged_stim (c : Dev nD) : (V m c main_v6 : S2048x128.Idx → EReal) = m ((c : Thread nD τ).loc main_arg1) := by
  dsimp only [V, hostOps0]; after_results; rfl
/-- The staged input weights are the input weights. -/
theorem staged_inw (c : Dev nD) : (V m c main_v7 : S128x2048.Idx → EReal) = m ((c : Thread nD τ).loc main_arg8) := by
  dsimp only [V, hostOps0]; after_results; rfl

/-- `Vᵀ (k, a) = V (a, k)`. -/
theorem vt_at (c : Dev nD) (k : Fin 2048) (a : Fin 64) :
    (V m c main_v3 : S2048x64.Idx → EReal) (ix2 k a) = m ((c : Thread nD τ).loc main_arg7) (ix2 a k) := by
  rw [staged_vt]
  exact transpose_apply [1, 0] _ transposes_S64x2048_S2048x64_1_0 (ix2 k a) (ix2 a k) (fun b => match b with
    | ⟨0, _⟩ => rfl
    | ⟨1, _⟩ => rfl)
/-- `Uᵀ (a, j) = U (j, a)`. -/
theorem ut_at (c : Dev nD) (a : Fin 64) (j : Fin 2048) :
    (V m c main_v5 : S64x2048.Idx → EReal) (ix2 a j) = m ((c : Thread nD τ).loc main_arg6) (ix2 j a) := by
  rw [staged_ut]
  exact transpose_apply [1, 0] _ transposes_S2048x64_S64x2048_1_0 (ix2 a j) (ix2 j a) (fun b => match b with
    | ⟨0, _⟩ => rfl
    | ⟨1, _⟩ => rfl)

/-! ## Which block each window stages at a point, decided over the sixteen points -/

theorem out_bound : ∀ t : Fin cfg0.N, win0_10.index t (0 : Fin 2) ≤ 3 ∧ win0_10.index t (1 : Fin 2) ≤ 3 :=
  (by decide +kernel : ∀ t : Fin grid0.N, _)
theorem rate_same : ∀ t : Fin cfg0.N, win0_11.index t (0 : Fin 2) = win0_10.index t (0 : Fin 2) ∧ win0_11.index t (1 : Fin 2) = win0_10.index t (1 : Fin 2) :=
  (by decide +kernel : ∀ t : Fin grid0.N, _)
theorem idx_rates : ∀ t : Fin cfg0.N, win0_0.index t (0 : Fin 2) = win0_10.index t (0 : Fin 2) ∧ win0_0.index t (1 : Fin 2) = 0 :=
  (by decide +kernel : ∀ t : Fin grid0.N, _)
theorem idx_weights : ∀ t : Fin cfg0.N, win0_1.index t (0 : Fin 2) = 0 ∧ win0_1.index t (1 : Fin 2) = win0_10.index t (1 : Fin 2) :=
  (by decide +kernel : ∀ t : Fin grid0.N, _)
theorem idx_vt : ∀ t : Fin cfg0.N, win0_2.index t (0 : Fin 2) = 0 ∧ win0_2.index t (1 : Fin 2) = 0 :=
  (by decide +kernel : ∀ t : Fin grid0.N, _)
theorem idx_ut : ∀ t : Fin cfg0.N, win0_3.index t (0 : Fin 2) = 0 ∧ win0_3.index t (1 : Fin 2) = win0_10.index t (1 : Fin 2) :=
  (by decide +kernel : ∀ t : Fin grid0.N, _)
theorem idx_gate : ∀ t : Fin cfg0.N, win0_4.index t (0 : Fin 2) = win0_10.index t (0 : Fin 2) ∧ win0_4.index t (1 : Fin 2) = 0 :=
  (by decide +kernel : ∀ t : Fin grid0.N, _)
theorem idx_stim : ∀ t : Fin cfg0.N, win0_5.index t (0 : Fin 2) = win0_10.index t (0 : Fin 2) ∧ win0_5.index t (1 : Fin 2) = 0 :=
  (by decide +kernel : ∀ t : Fin grid0.N, _)
theorem idx_inw : ∀ t : Fin cfg0.N, win0_6.index t (0 : Fin 2) = 0 ∧ win0_6.index t (1 : Fin 2) = win0_10.index t (1 : Fin 2) :=
  (by decide +kernel : ∀ t : Fin grid0.N, _)
theorem idx_bias : ∀ t : Fin cfg0.N, win0_7.index t (0 : Fin 2) = 0 ∧ win0_7.index t (1 : Fin 2) = win0_10.index t (1 : Fin 2) :=
  (by decide +kernel : ∀ t : Fin grid0.N, _)
theorem idx_noise : ∀ t : Fin cfg0.N, win0_8.index t (0 : Fin 2) = win0_10.index t (0 : Fin 2) ∧ win0_8.index t (1 : Fin 2) = win0_10.index t (1 : Fin 2) :=
  (by decide +kernel : ∀ t : Fin grid0.N, _)
theorem idx_state : ∀ t : Fin cfg0.N, win0_9.index t (0 : Fin 2) = win0_10.index t (0 : Fin 2) ∧ win0_9.index t (1 : Fin 2) = win0_10.index t (1 : Fin 2) :=
  (by decide +kernel : ∀ t : Fin grid0.N, _)

/-- The row of the arrays at which row `p` of point `t`'s block sits. -/
def rowOf (t : Fin cfg0.N) (p : Fin 512) : Fin 2048 :=
  ⟨win0_10.index t (0 : Fin 2) * 512 + p.val, by have := (out_bound t).1; have := p.isLt; omega⟩
/-- The column of the arrays at which column `q` of point `t`'s block sits. -/
def colOf (t : Fin cfg0.N) (q : Fin 512) : Fin 2048 :=
  ⟨win0_10.index t (1 : Fin 2) * 512 + q.val, by have := (out_bound t).2; have := q.isLt; omega⟩

/-! ## Each staged block, read at an entry -/

theorem blk_rates (c : Dev nD) (t : Fin cfg0.N) (p : Fin 512) (k : Fin 2048) :
    (iblk m c 0 t : Vec Ideal S512x2048 .bf16) (ix2 p k) = m ((c : Thread nD τ).loc main_arg3) (ix2 (rowOf t p) k) := by
  obtain ⟨e0, e1⟩ := idx_rates t
  unfold iblk
  rw [View.read_apply]
  show (V m c main_v0 : S2048x2048.Idx → EReal) _ = _
  rw [staged_rates]
  refine congrArg _ (funext fun a => Fin.ext ?_)
  match a with
  | ⟨0, _⟩ => show win0_0.index t (0 : Fin 2) * 512 + 1 * p.val = win0_10.index t (0 : Fin 2) * 512 + p.val; omega
  | ⟨1, _⟩ => show win0_0.index t (1 : Fin 2) * 2048 + 1 * k.val = k.val; omega

theorem blk_weights (c : Dev nD) (t : Fin cfg0.N) (k : Fin 2048) (q : Fin 512) :
    (iblk m c 1 t : Vec Ideal S2048x512 .bf16) (ix2 k q) = m ((c : Thread nD τ).loc main_arg4) (ix2 k (colOf t q)) := by
  obtain ⟨e0, e1⟩ := idx_weights t
  unfold iblk
  rw [View.read_apply]
  show (V m c main_v1 : S2048x2048.Idx → EReal) _ = _
  rw [staged_weights]
  refine congrArg _ (funext fun a => Fin.ext ?_)
  match a with
  | ⟨0, _⟩ => show win0_1.index t (0 : Fin 2) * 2048 + 1 * k.val = k.val; omega
  | ⟨1, _⟩ => show win0_1.index t (1 : Fin 2) * 512 + 1 * q.val = win0_10.index t (1 : Fin 2) * 512 + q.val; omega

theorem blk_vt (c : Dev nD) (t : Fin cfg0.N) (k : Fin 2048) (a : Fin 64) :
    (iblk m c 2 t : Vec Ideal S2048x64 .bf16) (ix2 k a) = m ((c : Thread nD τ).loc main_arg7) (ix2 a k) := by
  obtain ⟨e0, e1⟩ := idx_vt t
  refine Eq.trans ?_ (vt_at m c k a)
  unfold iblk
  rw [View.read_apply]
  show (V m c main_v3 : S2048x64.Idx → EReal) _ = _
  refine congrArg _ (funext fun d => Fin.ext ?_)
  match d with
  | ⟨0, _⟩ => show win0_2.index t (0 : Fin 2) * 2048 + 1 * k.val = k.val; omega
  | ⟨1, _⟩ => show win0_2.index t (1 : Fin 2) * 64 + 1 * a.val = a.val; omega

theorem blk_ut (c : Dev nD) (t : Fin cfg0.N) (a : Fin 64) (q : Fin 512) :
    (iblk m c 3 t : Vec Ideal S64x512 .bf16) (ix2 a q) = m ((c : Thread nD τ).loc main_arg6) (ix2 (colOf t q) a) := by
  obtain ⟨e0, e1⟩ := idx_ut t
  refine Eq.trans ?_ (ut_at m c a (colOf t q))
  unfold iblk
  rw [View.read_apply]
  show (V m c main_v5 : S64x2048.Idx → EReal) _ = _
  refine congrArg _ (funext fun d => Fin.ext ?_)
  match d with
  | ⟨0, _⟩ => show win0_3.index t (0 : Fin 2) * 64 + 1 * a.val = a.val; omega
  | ⟨1, _⟩ => show win0_3.index t (1 : Fin 2) * 512 + 1 * q.val = win0_10.index t (1 : Fin 2) * 512 + q.val; omega

theorem blk_gate (c : Dev nD) (t : Fin cfg0.N) (p : Fin 512) (a : Fin 64) :
    (iblk m c 4 t : Vec Ideal S512x64 .f32) (ix2 p a) = m ((c : Thread nD τ).loc main_arg0) (ix2 (rowOf t p) a) := by
  obtain ⟨e0, e1⟩ := idx_gate t
  unfold iblk
  rw [View.read_apply]
  show (V m c main_arg0 : S2048x64.Idx → EReal) _ = _
  rw [V_main_arg0]
  refine congrArg _ (funext fun d => Fin.ext ?_)
  match d with
  | ⟨0, _⟩ => show win0_4.index t (0 : Fin 2) * 512 + 1 * p.val = win0_10.index t (0 : Fin 2) * 512 + p.val; omega
  | ⟨1, _⟩ => show win0_4.index t (1 : Fin 2) * 64 + 1 * a.val = a.val; omega

theorem blk_stim (c : Dev nD) (t : Fin cfg0.N) (p : Fin 512) (b : Fin 128) :
    (iblk m c 5 t : Vec Ideal S512x128 .bf16) (ix2 p b) = m ((c : Thread nD τ).loc main_arg1) (ix2 (rowOf t p) b) := by
  obtain ⟨e0, e1⟩ := idx_stim t
  unfold iblk
  rw [View.read_apply]
  show (V m c main_v6 : S2048x128.Idx → EReal) _ = _
  rw [staged_stim]
  refine congrArg _ (funext fun d => Fin.ext ?_)
  match d with
  | ⟨0, _⟩ => show win0_5.index t (0 : Fin 2) * 512 + 1 * p.val = win0_10.index t (0 : Fin 2) * 512 + p.val; omega
  | ⟨1, _⟩ => show win0_5.index t (1 : Fin 2) * 128 + 1 * b.val = b.val; omega

theorem blk_inw (c : Dev nD) (t : Fin cfg0.N) (b : Fin 128) (q : Fin 512) :
    (iblk m c 6 t : Vec Ideal S128x512 .bf16) (ix2 b q) = m ((c : Thread nD τ).loc main_arg8) (ix2 b (colOf t q)) := by
  obtain ⟨e0, e1⟩ := idx_inw t
  unfold iblk
  rw [View.read_apply]
  show (V m c main_v7 : S128x2048.Idx → EReal) _ = _
  rw [staged_inw]
  refine congrArg _ (funext fun d => Fin.ext ?_)
  match d with
  | ⟨0, _⟩ => show win0_6.index t (0 : Fin 2) * 128 + 1 * b.val = b.val; omega
  | ⟨1, _⟩ => show win0_6.index t (1 : Fin 2) * 512 + 1 * q.val = win0_10.index t (1 : Fin 2) * 512 + q.val; omega

theorem blk_bias (c : Dev nD) (t : Fin cfg0.N) (q : Fin 512) :
    (iblk m c 7 t : Vec Ideal S1x512 .f32) (ix2 (0 : Fin 1) q) = m ((c : Thread nD τ).loc main_arg5) (ix2 (0 : Fin 1) (colOf t q)) := by
  obtain ⟨e0, e1⟩ := idx_bias t
  unfold iblk
  rw [View.read_apply]
  show (V m c main_arg5 : S1x2048.Idx → EReal) _ = _
  rw [V_main_arg5]
  refine congrArg _ (funext fun d => Fin.ext ?_)
  match d with
  | ⟨0, _⟩ => show win0_7.index t (0 : Fin 2) * 1 + 1 * 0 = 0; omega
  | ⟨1, _⟩ => show win0_7.index t (1 : Fin 2) * 512 + 1 * q.val = win0_10.index t (1 : Fin 2) * 512 + q.val; omega

theorem blk_noise (c : Dev nD) (t : Fin cfg0.N) (p q : Fin 512) :
    (iblk m c 8 t : Vec Ideal S512x512 .f32) (ix2 p q) = m ((c : Thread nD τ).loc main_arg9) (ix2 (rowOf t p) (colOf t q)) := by
  obtain ⟨e0, e1⟩ := idx_noise t
  unfold iblk
  rw [View.read_apply]
  show (V m c main_arg9 : S2048x2048.Idx → EReal) _ = _
  rw [V_main_arg9]
  refine congrArg _ (funext fun d => Fin.ext ?_)
  match d with
  | ⟨0, _⟩ => show win0_8.index t (0 : Fin 2) * 512 + 1 * p.val = win0_10.index t (0 : Fin 2) * 512 + p.val; omega
  | ⟨1, _⟩ => show win0_8.index t (1 : Fin 2) * 512 + 1 * q.val = win0_10.index t (1 : Fin 2) * 512 + q.val; omega

theorem blk_state (c : Dev nD) (t : Fin cfg0.N) (p q : Fin 512) :
    (iblk m c 9 t : Vec Ideal S512x512 .f32) (ix2 p q) = m ((c : Thread nD τ).loc main_arg2) (ix2 (rowOf t p) (colOf t q)) := by
  obtain ⟨e0, e1⟩ := idx_state t
  unfold iblk
  rw [View.read_apply]
  show (V m c main_arg2 : S2048x2048.Idx → EReal) _ = _
  rw [V_main_arg2]
  refine congrArg _ (funext fun d => Fin.ext ?_)
  match d with
  | ⟨0, _⟩ => show win0_9.index t (0 : Fin 2) * 512 + 1 * p.val = win0_10.index t (0 : Fin 2) * 512 + p.val; omega
  | ⟨1, _⟩ => show win0_9.index t (1 : Fin 2) * 512 + 1 * q.val = win0_10.index t (1 : Fin 2) * 512 + q.val; omega

/-! ## What a point computes at an entry of its block -/

/-- Entry `(p, q)` of the state's block at point `t` is the new state at `(rowOf t p, colOf t q)`. -/
theorem state_entry (c : Dev nD) (t : Fin cfg0.N) (p q : Fin 512) :
    k0_pay1 (k0_pay3 (iblk m c 0 t) (iblk m c 1 t) (iblk m c 2 t) (iblk m c 4 t) (iblk m c 3 t) (iblk m c 5 t) (iblk m c 6 t) (iblk m c 9 t) (iblk m c 7 t) (iblk m c 8 t)) (iblk m c 9 t) (ix2 p q)
      = stateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowOf t p) (colOf t q) := by
  refine (Body.state_at (k0_pay3 (iblk m c 0 t) (iblk m c 1 t) (iblk m c 2 t) (iblk m c 4 t) (iblk m c 3 t) (iblk m c 5 t) (iblk m c 6 t) (iblk m c 9 t) (iblk m c 7 t) (iblk m c 8 t)) (iblk m c 9 t) (ix2 p q)).trans ?_
  rw [Body.drive_at (rowOf t) (colOf t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 4 t) (iblk m c 3 t) (iblk m c 5 t) (iblk m c 6 t) (iblk m c 9 t) (iblk m c 7 t) (iblk m c 8 t)
    (blk_rates m c t) (blk_weights m c t) (blk_vt m c t) (blk_gate m c t) (blk_ut m c t) (blk_stim m c t) (blk_inw m c t)
    (blk_state m c t) (blk_bias m c t) (blk_noise m c t) p q, blk_state m c t p q]
  rfl

/-! ## The two write-backs are blocks of the new state and the new rate -/

theorem hz : (![0, 0] : Fin 2 → Nat) = fun _ => 0 := funext fun a => by fin_cases a <;> rfl

/-- Where entry `(p, q)` of the state's block lands in the array. -/
theorem emb_state (t : Fin cfg0.N) (p q : Fin 512) :
    ((cfg0.win 10).blk t).view.emb (ix2 p q) = ix2 (rowOf t p) (colOf t q) := by
  funext a; apply Fin.ext
  match a with
  | ⟨0, _⟩ => show win0_10.index t (0 : Fin 2) * 512 + 1 * p.val = win0_10.index t (0 : Fin 2) * 512 + p.val; omega
  | ⟨1, _⟩ => show win0_10.index t (1 : Fin 2) * 512 + 1 * q.val = win0_10.index t (1 : Fin 2) * 512 + q.val; omega

/-- Where entry `(p, q)` of the rate's block lands in the array: the same place. -/
theorem emb_rate (t : Fin cfg0.N) (p q : Fin 512) :
    ((cfg0.win 11).blk t).view.emb (ix2 p q) = ix2 (rowOf t p) (colOf t q) := by
  obtain ⟨e0, e1⟩ := rate_same t
  funext a; apply Fin.ext
  match a with
  | ⟨0, _⟩ => show win0_11.index t (0 : Fin 2) * 512 + 1 * p.val = win0_10.index t (0 : Fin 2) * 512 + p.val; omega
  | ⟨1, _⟩ => show win0_11.index t (1 : Fin 2) * 512 + 1 * q.val = win0_10.index t (1 : Fin 2) * 512 + q.val; omega

/-- The new state of the arguments as launched. -/
abbrev stateOf (c : Dev nD) : Buf (Elt Ideal) ((c : Thread nD τ).loc main_v8_0) :=
  newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The new rate of the arguments as launched. -/
abbrev rateOf (c : Dev nD) : Buf (Elt Ideal) ((c : Thread nD τ).loc main_v8_1) :=
  newRate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point `t` writes back to the first result is block `t` of the new state. -/
theorem flushed_state (c : Dev nD) (t : Fin cfg0.N) :
    (dats m 0 c).flushed 10 t = ((cfg0.win 10).blk t).view.read (Elt Ideal) (stateOf m c) := by
  rw [flushed10]
  unfold out0_10
  rw [View.canon_unit_zero hz]
  simp only [View.ld_unit_zero (S := S512x2048) hz, View.ld_unit_zero (S := S2048x512) hz, View.ld_unit_zero (S := S2048x64) hz,
    View.ld_unit_zero (S := S512x64) hz, View.ld_unit_zero (S := S64x512) hz, View.ld_unit_zero (S := S512x128) hz,
    View.ld_unit_zero (S := S128x512) hz, View.ld_unit_zero (S := S512x512) hz, View.ld_unit_zero (S := S1x512) hz]
  funext y
  obtain ⟨p, q, rfl⟩ : ∃ (p q : Fin 512), y = ix2 p q := ⟨y 0, y 1, eq_ix2 y⟩
  show k0_pay1 (k0_pay3 (iblk m c 0 t) (iblk m c 1 t) (iblk m c 2 t) (iblk m c 4 t) (iblk m c 3 t) (iblk m c 5 t) (iblk m c 6 t) (iblk m c 9 t) (iblk m c 7 t) (iblk m c 8 t)) (iblk m c 9 t) (ix2 p q) = stateOf m c (((cfg0.win 10).blk t).view.emb (ix2 p q))
  rw [state_entry, emb_state]
  rfl

/-- What point `t` writes back to the second result is block `t` of the new rate. -/
theorem flushed_rate (c : Dev nD) (t : Fin cfg0.N) :
    (dats m 0 c).flushed 11 t = ((cfg0.win 11).blk t).view.read (Elt Ideal) (rateOf m c) := by
  rw [flushed11]
  unfold out0_11
  rw [View.canon_unit_zero hz]
  simp only [View.ld_unit_zero (S := S512x2048) hz, View.ld_unit_zero (S := S2048x512) hz, View.ld_unit_zero (S := S2048x64) hz,
    View.ld_unit_zero (S := S512x64) hz, View.ld_unit_zero (S := S64x512) hz, View.ld_unit_zero (S := S512x128) hz,
    View.ld_unit_zero (S := S128x512) hz, View.ld_unit_zero (S := S512x512) hz, View.ld_unit_zero (S := S1x512) hz]
  funext y
  obtain ⟨p, q, rfl⟩ : ∃ (p q : Fin 512), y = ix2 p q := ⟨y 0, y 1, eq_ix2 y⟩
  show k0_pay2 (k0_pay3 (iblk m c 0 t) (iblk m c 1 t) (iblk m c 2 t) (iblk m c 4 t) (iblk m c 3 t) (iblk m c 5 t) (iblk m c 6 t) (iblk m c 9 t) (iblk m c 7 t) (iblk m c 8 t)) (iblk m c 9 t) (ix2 p q) = rateOf m c (((cfg0.win 11).blk t).view.emb (ix2 p q))
  rw [Body.rate_at, state_entry, emb_rate]
  rfl

/-! ## The sixteen blocks tile the arrays -/

theorem onto_state : ∀ (b0 b1 : Fin 4), ∃ t : Fin cfg0.N, win0_10.index t = ![b0.val, b1.val] :=
  (by decide +kernel : ∀ (b0 b1 : Fin 4), ∃ t : Fin grid0.N, win0_10.index t = ![b0.val, b1.val])
theorem onto_rate : ∀ (b0 b1 : Fin 4), ∃ t : Fin cfg0.N, win0_11.index t = ![b0.val, b1.val] :=
  (by decide +kernel : ∀ (b0 b1 : Fin 4), ∃ t : Fin grid0.N, win0_11.index t = ![b0.val, b1.val])

/-- An index is in point `t`'s block of the first result iff each coordinate is in the block's range. -/
theorem mem_blk_state (t : Fin cfg0.N) (i : S2048x2048.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v8_0).slice (win0_10.rect t)).set ↔ _
  rw [View.set_slice_whole, Rect.mem_set_unit]
  exact Iff.rfl
theorem mem_blk_rate (t : Fin cfg0.N) (i : S2048x2048.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v8_1).slice (win0_11.rect t)).set ↔ _
  rw [View.set_slice_whole, Rect.mem_set_unit]
  exact Iff.rfl

/-- Every index of the first result is in the block of the point whose coordinates are its row and column divided by 512. -/
theorem cover_state (i : S2048x2048.Idx) : ∃ t : Fin cfg0.N, (cfg0.win 10).flush t = true ∧ i ∈ ((cfg0.win 10).blk t).view.set := by
  have hi0 : (i 0).val < 2048 := (i 0).isLt
  have hi1 : (i 1).val < 2048 := (i 1).isLt
  obtain ⟨t, ht⟩ := onto_state ⟨(i 0).val / 512, by omega⟩ ⟨(i 1).val / 512, by omega⟩
  have q0 : win0_10.index t (0 : Fin 2) = (i 0).val / 512 := congrFun ht 0
  have q1 : win0_10.index t (1 : Fin 2) = (i 1).val / 512 := congrFun ht 1
  refine ⟨t, flush0_10 t, ?_⟩
  rw [mem_blk_state]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

theorem cover_rate (i : S2048x2048.Idx) : ∃ t : Fin cfg0.N, (cfg0.win 11).flush t = true ∧ i ∈ ((cfg0.win 11).blk t).view.set := by
  have hi0 : (i 0).val < 2048 := (i 0).isLt
  have hi1 : (i 1).val < 2048 := (i 1).isLt
  obtain ⟨t, ht⟩ := onto_rate ⟨(i 0).val / 512, by omega⟩ ⟨(i 1).val / 512, by omega⟩
  have q0 : win0_11.index t (0 : Fin 2) = (i 0).val / 512 := congrFun ht 0
  have q1 : win0_11.index t (1 : Fin 2) = (i 1).val / 512 := congrFun ht 1
  refine ⟨t, flush0_11 t, ?_⟩
  rw [mem_blk_rate]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-! ## The arrays after the run, and the run -/

theorem final_state (c : Dev nD) : (dats m 0 c).arrAt 10 cfg0.N = stateOf m c :=
  (dats m 0 c).arrAt_eq_of_cover 10 (stateOf m c) (fun t _ => flushed_state m c t) cover_state

theorem final_rate (c : Dev nD) : (dats m 0 c).arrAt 11 cfg0.N = rateOf m c :=
  (dats m 0 c).arrAt_eq_of_cover 11 (rateOf m c) (fun t _ => flushed_rate m c t) cover_rate

/-- Every weakly fair execution of the kernel's program ends with the first result at the new state, the second at the
    new rate, and the arguments as launched. -/
theorem run : θ_run defs (onTc (τ := τ) (main (F := Ideal))) ⟨m, fun _ => 0, ρ⟩ fun r => ∀ c : Dev nD,
      r.2.mem ((c : Thread nD τ).loc main_v8_0) = stateOf m c
      ∧ r.2.mem ((c : Thread nD τ).loc main_v8_1) = rateOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_state m c), (h c).2.1.trans (final_rate m c), (h c).2.2⟩)
    (run_blocks m ρ)

end Cert.KernelIdeal.Blocks

end
-- ==== Proof.RefSpec.lean ====
/-
  The reference's two results are the rate step's new state and new rate.

  Read one operation at a time, entry `(i, j)` of the reference's state is `x + h · (((((−x + r·J) + low-rank) + B) + s·W) + σ·e)`
  with each product a sum over its contracted axis, and its rate is `logaddexp` of that against zero. What is
  proved here is bookkeeping: the operand indices of each product and of each transpose and broadcast, as
  coordinates.
-/
import proofs.«128068_j18116172054562_1_alg».proof.Proof.Gen.ReferenceIdeal.Read
import proofs.«128068_j18116172054562_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.RateStep

/-! ## Where each operation reads its operands -/

section Indices
variable (i j : Fin 2048)

theorem stim_lhs (b : Fin 128) : lidx_main_v0 (ix2 i j) b = ix2 i b :=
  funext fun a => Fin.ext (by match a with | ⟨0, _⟩ => rfl | ⟨1, _⟩ => rfl)
theorem stim_rhs (b : Fin 128) : ridx_main_v0 (ix2 i j) b = ix2 b j :=
  funext fun a => Fin.ext (by match a with | ⟨0, _⟩ => rfl | ⟨1, _⟩ => rfl)
theorem recur_lhs (k : Fin 2048) : lidx_main_v7 (ix2 i j) k = ix2 i k :=
  funext fun a => Fin.ext (by match a with | ⟨0, _⟩ => rfl | ⟨1, _⟩ => rfl)
theorem recur_rhs (k : Fin 2048) : ridx_main_v7 (ix2 i j) k = ix2 k j :=
  funext fun a => Fin.ext (by match a with | ⟨0, _⟩ => rfl | ⟨1, _⟩ => rfl)
theorem loop_lhs (a : Fin 64) : lidx_main_v5 (ix2 i j) a = ix2 i a :=
  funext fun d => Fin.ext (by match d with | ⟨0, _⟩ => rfl | ⟨1, _⟩ => rfl)
theorem loop_rhs (a : Fin 64) : ridx_main_v5 (ix2 i j) a = ix2 a j :=
  funext fun d => Fin.ext (by match d with | ⟨0, _⟩ => rfl | ⟨1, _⟩ => rfl)
theorem proj_lhs (a : Fin 64) (k : Fin 2048) : lidx_main_v2 (ix2 i a) k = ix2 i k :=
  funext fun d => Fin.ext (by match d with | ⟨0, _⟩ => rfl | ⟨1, _⟩ => rfl)
theorem proj_rhs (a : Fin 64) (k : Fin 2048) : ridx_main_v2 (ix2 i a) k = ix2 k a :=
  funext fun d => Fin.ext (by match d with | ⟨0, _⟩ => rfl | ⟨1, _⟩ => rfl)
/-- `Vᵀ (k, a) = V (a, k)`. -/
theorem vt_idx (a : Fin 64) (k : Fin 2048) : idx_main_v1 (ix2 k a) = ix2 a k :=
  funext fun d => Fin.ext (by match d with | ⟨0, _⟩ => rfl | ⟨1, _⟩ => rfl)
/-- `Uᵀ (a, j) = U (j, a)`. -/
theorem ut_idx (a : Fin 64) : idx_main_v4 (ix2 a j) = ix2 j a :=
  funext fun d => Fin.ext (by match d with | ⟨0, _⟩ => rfl | ⟨1, _⟩ => rfl)
/-- The bias row is read at its one row. -/
theorem bias_idx : idx_main_v10 (ix2 i j) = ix2 (0 : Fin 1) j :=
  funext fun d => Fin.ext (by match d with | ⟨0, _⟩ => rfl | ⟨1, _⟩ => rfl)

end Indices

variable (x0 : (⟨S2048x64, .f32⟩ : BufTy).Contents (Elt Ideal)) (x1 : (⟨S2048x128, .f32⟩ : BufTy).Contents (Elt Ideal))
  (x2 x3 x4 : (⟨S2048x2048, .f32⟩ : BufTy).Contents (Elt Ideal)) (x5 : (⟨S1x2048, .f32⟩ : BufTy).Contents (Elt Ideal))
  (x6 : (⟨S2048x64, .f32⟩ : BufTy).Contents (Elt Ideal)) (x7 : (⟨S64x2048, .f32⟩ : BufTy).Contents (Elt Ideal))
  (x8 : (⟨S128x2048, .f32⟩ : BufTy).Contents (Elt Ideal)) (x9 : (⟨S2048x2048, .f32⟩ : BufTy).Contents (Elt Ideal))

/-- The reference's first result is the new state. -/
theorem state_eq : val_main_v18 (F := Ideal) x0 x1 x2 x3 x4 x5 x6 x7 x8 x9 = newState x0 x1 x2 x3 x4 x5 x6 x7 x8 x9 := by
  funext ij
  obtain ⟨i, j, rfl⟩ : ∃ (i j : Fin 2048), ij = ix2 i j := ⟨ij 0, ij 1, eq_ix2 ij⟩
  rw [val_main_v18_apply, val_main_v17_apply, val_main_v16_apply, val_main_cst_0_apply, val_main_v15_apply,
    val_main_v14_apply, val_main_v13_apply, val_main_cst_apply, val_main_v12_apply, val_main_v0_apply,
    val_main_v11_apply, val_main_v10_apply, val_main_v9_apply, val_main_v5_apply, val_main_v8_apply,
    val_main_v7_apply, val_main_v6_apply]
  simp only [val_main_v3_apply, val_main_v2_apply, val_main_v1_apply, val_main_v4_apply,
    stim_lhs, stim_rhs, recur_lhs, recur_rhs, loop_lhs, loop_rhs, proj_lhs, proj_rhs, vt_idx, ut_idx, bias_idx,
    Ideal.addf_def, Ideal.mulf_def, Ideal.hostNegf_def, Ideal.negf_def, Ideal.ofBits_def]
  rfl

/-- The reference's second result is the new rate. -/
theorem rate_eq : val_main_v19 (F := Ideal) x0 x1 x2 x3 x4 x5 x6 x7 x8 x9 = newRate x0 x1 x2 x3 x4 x5 x6 x7 x8 x9 := by
  funext ij
  rw [val_main_v19_apply, val_main_call0_v4_apply, val_main_call0_v6_apply, val_main_call0_v11_apply,
    val_main_call0_v10_apply, val_main_call0_v9_apply, val_main_call0_v8_apply, val_main_call0_v7_apply,
    val_main_call0_v3_apply, val_main_call0_v1_apply, val_main_call0_v5_apply, val_main_call0_v2_apply,
    val_main_call0_v0_apply, val_main_call0_cst_apply, state_eq]
  simp only [Ideal.addf_def, Ideal.subf_def, Ideal.maximumf_def, Ideal.hostNegf_def, Ideal.negf_def, Ideal.hostAbsf_def,
    Ideal.absf_def, Ideal.cmpf_def, Ideal.hostUnary_exp_def, Ideal.hostUnary_log1p_def, Ideal.ofBits_def,
    Ideal.ofBits_zero_f32]
  exact softplus_of_neg _

end Cert.ReferenceIdeal.RefValue

end
-- ==== Proof.lean ====
/-
  One step of a rate network, fused into a single kernel, against its plain formulation.

  Both programs take the state `x`, the rates `r`, recurrent weights `J`, a gate `g` on a rank-64 loop `U, V`, a
  stimulus `s` with input weights `W`, a bias row `B` and noise `e`, and return the new state

      x + h · (−x + r·J + (g ∘ (r·Vᵀ))·Uᵀ + B + s·W + σ·e)

  and its softplus. The kernel tiles the result in 512 × 512 blocks over a 4 × 4 grid, stages narrower float copies of
  the matrix operands, and forms the four products block by block; over the extended reals a change of float format is
  the identity, a product accumulated from zero is the plain sum, and the six terms are added in the same order on both
  sides with the same two constants, so no law of arithmetic beyond `0 − a = −a` and `a − 0 = a` is used, and the
  finiteness of the inputs is never needed. The softplus is `logaddexp` against zero on both sides, its guard against an
  undefined difference never taken.

  The pieces: the step as mathematics (Spec), the reference's results are it (RefSpec), the kernel's arithmetic at an entry
  of a block is it (Body, over the row-by-column product of LibMatmul), the blocks tile the arrays (Blocks).
-/
import proofs.«128068_j18116172054562_1_alg».proof.Defs
import proofs.«128068_j18116172054562_1_alg».proof.Proof.Gen.Kernel
import proofs.«128068_j18116172054562_1_alg».proof.Proof.Gen.Kernel.Skeleton
import proofs.«128068_j18116172054562_1_alg».proof.Proof.Gen.Kernel.Launch
import proofs.«128068_j18116172054562_1_alg».proof.Proof.Gen.Kernel.Points
import proofs.«128068_j18116172054562_1_alg».proof.Proof.Gen.Kernel.Frame
import proofs.«128068_j18116172054562_1_alg».proof.Proof.Gen.KernelIdeal
import proofs.«128068_j18116172054562_1_alg».proof.Proof.Gen.KernelIdeal.Skeleton
import proofs.«128068_j18116172054562_1_alg».proof.Proof.Gen.KernelIdeal.Launch
import proofs.«128068_j18116172054562_1_alg».proof.Proof.Gen.KernelIdeal.Points
import proofs.«128068_j18116172054562_1_alg».proof.Proof.Gen.KernelIdeal.Frame
import proofs.«128068_j18116172054562_1_alg».proof.Proof.Gen.ReferenceIdeal
import proofs.«128068_j18116172054562_1_alg».proof.Proof.Gen.Pre_finite_inputs
import proofs.«128068_j18116172054562_1_alg».proof.Proof.Gen.KernelIdeal.Value
import proofs.«128068_j18116172054562_1_alg».proof.Proof.Gen.ReferenceIdeal.Run
import proofs.«128068_j18116172054562_1_alg».proof.Proof.Gen.ReferenceIdeal.Read
import proofs.«128068_j18116172054562_1_alg».proof.Proof.Blocks
import proofs.«128068_j18116172054562_1_alg».proof.Proof.RefSpec
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing of the kernel's text was rewritten to read it over the extended reals. -/
theorem preserves : Cert.preserves_Kernel_KernelIdeal := trivial

/-- From memories that agree on the arguments both programs end with the new state and the new rate of those arguments. -/
theorem algebraic : Cert.algebraic_KernelIdeal_ReferenceIdeal := by
  intro m ρ m' ρ' _ hagree
  refine ⟨fun c => Cert.KernelIdeal.Blocks.stateOf m c, fun c => Cert.KernelIdeal.Blocks.rateOf m c,
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v18_eq (F := Ideal) _ _ _ _ _ _ _ _ _ _).trans ?_
    rw [Cert.ReferenceIdeal.RefValue.state_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
  · rw [Cert.ReferenceIdeal.Read.val_main_v19_eq, Cert.ReferenceIdeal.RefValue.rate_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
